-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x768 : Shape := ⟨2, ![128, 768]⟩
abbrev S128 : Shape := ⟨1, ![128]⟩
abbrev S65536x768 : Shape := ⟨2, ![65536, 768]⟩
abbrev S_ : Shape := ⟨0, ![]⟩

class Facts : Prop where
  bcast_S_S128x768 : S_.BroadcastsInDim S128x768 (![] : Fin 0 → Fin S128x768.rank)
  reducesTo_S128x768_S_d0_1 : S128x768.ReducesTo [0, 1] S_
  h_S_ : 0 < S_.numel
  bcast_S_S65536x768 : S_.BroadcastsInDim S65536x768 (![] : Fin 0 → Fin S65536x768.rank)
  reducesTo_S65536x768_S_d0_1 : S65536x768.ReducesTo [0, 1] S_

variable [Facts]

def fn {F : FTy → Type} [FloatOps F] (main_arg0 : FVec F S128x768 .f32) (main_arg1 : IVec S128 32) (main_arg2 : FVec F S65536x768 .f32) : IVec S_ 1 :=
  let main_v0 : FVec F S128x768 .f32 := Host.absf main_arg0
  let main_cst : FVec F S_ .f32 := constant S_ .f32 0x7F800000#32
  let main_v1 : FVec F S128x768 .f32 := broadcastInDim S128x768 ![] bcast_S_S128x768 main_cst
  let main_v2 : IVec S128x768 1 := cmpf .olt main_v0 main_v1
  let main_c : IVec S_ 1 := constantI S_ 1 1#1
  let main_v3 : IVec S_ 1 := (fun x v => Host.reduce IntOp.andi x v reducesTo_S128x768_S_d0_1 h_S_) main_v2 main_c
  let main_v4 : FVec F S65536x768 .f32 := Host.absf main_arg2
  let main_cst_0 : FVec F S_ .f32 := constant S_ .f32 0x7F800000#32
  let main_v5 : FVec F S65536x768 .f32 := broadcastInDim S65536x768 ![] bcast_S_S65536x768 main_cst_0
  let main_v6 : IVec S65536x768 1 := cmpf .olt main_v4 main_v5
  let main_c_1 : IVec S_ 1 := constantI S_ 1 1#1
  let main_v7 : IVec S_ 1 := (fun x v => Host.reduce IntOp.andi x v reducesTo_S65536x768_S_d0_1 h_S_) main_v6 main_c_1
  let main_v8 : IVec S_ 1 := andi main_v3 main_v7
  main_v8
-- ==== Kernel.lean ====
abbrev S128x768 : Shape := ⟨2, ![128, 768]⟩
abbrev S128 : Shape := ⟨1, ![128]⟩
abbrev S65536x768 : Shape := ⟨2, ![65536, 768]⟩
abbrev S_ : Shape := ⟨0, ![]⟩
abbrev S128x1 : Shape := ⟨2, ![128, 1]⟩
abbrev S128x65536 : Shape := ⟨2, ![128, 65536]⟩
abbrev S768x128 : Shape := ⟨2, ![768, 128]⟩
abbrev S128x128 : Shape := ⟨2, ![128, 128]⟩
abbrev S1x128 : Shape := ⟨2, ![1, 128]⟩
abbrev S4096x768 : Shape := ⟨2, ![4096, 768]⟩
abbrev S128x4096 : Shape := ⟨2, ![128, 4096]⟩
abbrev S1024x768 : Shape := ⟨2, ![1024, 768]⟩
abbrev S128x1024 : Shape := ⟨2, ![128, 1024]⟩

abbrev nBuf : Space → Nat
  | .hbm => 114
  | .vmem => 5
  | .smem => 0
  | _ => 0

abbrev bufTy : (tb : Table) → Fin (tcTables nBuf tb) → BufTy
  | .hbm, ⟨0, _⟩ => ⟨S128x768, .f32⟩
  | .hbm, ⟨1, _⟩ => ⟨S128, .i32⟩
  | .hbm, ⟨2, _⟩ => ⟨S65536x768, .f32⟩
  | .hbm, ⟨3, _⟩ => ⟨S128x768, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S128x768, .f32⟩
  | .hbm, ⟨12, _⟩ => ⟨S128x768, .f32⟩
  | .hbm, ⟨13, _⟩ => ⟨S128x768, .bf16⟩
  | .hbm, ⟨14, _⟩ => ⟨S128x65536, .f32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S128x1, .i32⟩
  | .hbm, ⟨23, _⟩ => ⟨S128x768, .f32⟩
  | .hbm, ⟨24, _⟩ => ⟨S768x128, .f32⟩
  | .hbm, ⟨25, _⟩ => ⟨S128x128, .f32⟩
  | .hbm, ⟨26, _⟩ => ⟨S128x1, .i32⟩
  | .hbm, ⟨27, _⟩ => ⟨S1x128, .i32⟩
  | .hbm, ⟨28, _⟩ => ⟨S128x128, .i32⟩
  | .hbm, ⟨29, _⟩ => ⟨S128x128, .i32⟩
  | .hbm, ⟨30, _⟩ => ⟨S128x128, .i1⟩
  | .hbm, ⟨31, _⟩ => ⟨S128x128, .i1⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128, .f32⟩
  | .hbm, ⟨41, _⟩ => ⟨S128x1, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S_, .f32⟩
  | .hbm, ⟨46, _⟩ => ⟨S_, .f32⟩
  | .hbm, ⟨47, _⟩ => ⟨S128x128, .f32⟩
  | .hbm, ⟨48, _⟩ => ⟨S128x128, .f32⟩
  | .hbm, ⟨49, _⟩ => ⟨S_, .f32⟩
  | .hbm, ⟨50, _⟩ => ⟨S128, .f32⟩
  | .hbm, ⟨51, _⟩ => ⟨S128x1, .f32⟩
  | .hbm, ⟨52, _⟩ => ⟨S_, .f32⟩
  | .hbm, ⟨53, _⟩ => ⟨S128x1, .f32⟩
  | .hbm, ⟨54, _⟩ => ⟨S128x1, .f32⟩
  | .hbm, ⟨55, _⟩ => ⟨S128x128, .f32⟩
  | .hbm, ⟨56, _⟩ => ⟨S128x128, .f32⟩
  | .hbm, ⟨57, _⟩ => ⟨S_, .f32⟩
  | .hbm, ⟨58, _⟩ => ⟨S128x128, .f32⟩
  | .hbm, ⟨59, _⟩ => ⟨S128x128, .f32⟩
  | .hbm, ⟨60, _⟩ => ⟨S_, .f32⟩
  | .hbm, ⟨61, _⟩ => ⟨S128x128, .f32⟩
  | .hbm, ⟨62, _⟩ => ⟨S128x128, .f32⟩
  | .hbm, ⟨63, _⟩ => ⟨S_, .f32⟩
  | .hbm, ⟨64, _⟩ => ⟨S128, .f32⟩
  | .hbm, ⟨65, _⟩ => ⟨S128x1, .f32⟩
  | .hbm, ⟨66, _⟩ => ⟨S128x128, .f32⟩
  | .hbm, ⟨67, _⟩ => ⟨S128x128, .f32⟩
  | .hbm, ⟨68, _⟩ => ⟨S128x128, .f32⟩
  | .hbm, ⟨69, _⟩ => ⟨S_, .f32⟩
  | .hbm, ⟨70, _⟩ => ⟨S_, .f32⟩
  | .hbm, ⟨71, _⟩ => ⟨S128x128, .f32⟩
  | .hbm, ⟨72, _⟩ => ⟨S128x128, .f32⟩
  | .hbm, ⟨73, _⟩ => ⟨S_, .f32⟩
  | .hbm, ⟨74, _⟩ => ⟨S128, .f32⟩
  | .hbm, ⟨75, _⟩ => ⟨S128x1, .f32⟩
  | .hbm, ⟨76, _⟩ => ⟨S_, .f32⟩
  | .hbm, ⟨77, _⟩ => ⟨S128x1, .f32⟩
  | .hbm, ⟨78, _⟩ => ⟨S128x1, .f32⟩
  | .hbm, ⟨79, _⟩ => ⟨S128x128, .f32⟩
  | .hbm, ⟨80, _⟩ => ⟨S128x128, .f32⟩
  | .hbm, ⟨81, _⟩ => ⟨S128x128, .f32⟩
  | .hbm, ⟨82, _⟩ => ⟨S_, .f32⟩
  | .hbm, ⟨83, _⟩ => ⟨S128, .f32⟩
  | .hbm, ⟨84, _⟩ => ⟨S128x128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S_, .i1⟩
  | .hbm, ⟨95, _⟩ => ⟨S128, .i1⟩
  | .hbm, ⟨96, _⟩ => ⟨S_, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S128x128, .f32⟩
  | .hbm, ⟨106, _⟩ => ⟨S128x128, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .local _ .vmem, ⟨0, _⟩ => ⟨S128x768, .bf16⟩
  | .local _ .vmem, ⟨1, _⟩ => ⟨S4096x768, .f32⟩
  | .local _ .vmem, ⟨2, _⟩ => ⟨S4096x768, .f32⟩
  | .local _ .vmem, ⟨3, _⟩ => ⟨S128x4096, .f32⟩
  | .local _ .vmem, ⟨4, _⟩ => ⟨S128x4096, .f32⟩
  | _, _ => ⟨S128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_call0_v0 : Ref sig .tc := ⟨.hbm, 3, rfl⟩
abbrev main_call0_call0_cst : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_v0_1 : Ref sig .tc := ⟨.hbm, 14, rfl⟩
abbrev main_call0_c : Ref sig .tc := ⟨.hbm, 15, rfl⟩
abbrev main_call0_v7 : Ref sig .tc := ⟨.hbm, 16, rfl⟩
abbrev main_call0_v8 : Ref sig .tc := ⟨.hbm, 17, rfl⟩
abbrev main_call0_c_0 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_cst_1 : Ref sig .tc := ⟨.hbm, 33, rfl⟩
abbrev main_call0_v23 : Ref sig .tc := ⟨.hbm, 34, rfl⟩
abbrev main_call0_v24 : Ref sig .tc := ⟨.hbm, 35, rfl⟩
abbrev main_call0_cst_2 : Ref sig .tc := ⟨.hbm, 36, rfl⟩
abbrev main_call0_call1_v0 : Ref sig .tc := ⟨.hbm, 37, rfl⟩
abbrev main_call0_v25 : Ref sig .tc := ⟨.hbm, 38, rfl⟩
abbrev main_call0_cst_3 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_call0_cst_4 : Ref sig .tc := ⟨.hbm, 45, rfl⟩
abbrev main_call0_call2_v0 : Ref sig .tc := ⟨.hbm, 46, rfl⟩
abbrev main_call0_call2_v1 : Ref sig .tc := ⟨.hbm, 47, rfl⟩
abbrev main_call0_v31 : Ref sig .tc := ⟨.hbm, 48, rfl⟩
abbrev main_call0_cst_5 : Ref sig .tc := ⟨.hbm, 49, rfl⟩
abbrev main_call0_v32 : Ref sig .tc := ⟨.hbm, 50, rfl⟩
abbrev main_call0_v33 : Ref sig .tc := ⟨.hbm, 51, rfl⟩
abbrev main_call0_cst_6 : Ref sig .tc := ⟨.hbm, 52, rfl⟩
abbrev main_call0_v34 : Ref sig .tc := ⟨.hbm, 53, rfl⟩
abbrev main_call0_v35 : Ref sig .tc := ⟨.hbm, 54, rfl⟩
abbrev main_call0_v36 : Ref sig .tc := ⟨.hbm, 55, rfl⟩
abbrev main_call0_v37 : Ref sig .tc := ⟨.hbm, 56, rfl⟩
abbrev main_call0_cst_7 : Ref sig .tc := ⟨.hbm, 57, rfl⟩
abbrev main_call0_v38 : Ref sig .tc := ⟨.hbm, 58, rfl⟩
abbrev main_call0_v39 : Ref sig .tc := ⟨.hbm, 59, rfl⟩
abbrev main_call0_cst_8 : Ref sig .tc := ⟨.hbm, 60, rfl⟩
abbrev main_call0_call3_v0 : Ref sig .tc := ⟨.hbm, 61, rfl⟩
abbrev main_call0_v40 : Ref sig .tc := ⟨.hbm, 62, rfl⟩
abbrev main_call0_cst_9 : Ref sig .tc := ⟨.hbm, 63, rfl⟩
abbrev main_call0_v41 : Ref sig .tc := ⟨.hbm, 64, rfl⟩
abbrev main_call0_v42 : Ref sig .tc := ⟨.hbm, 65, rfl⟩
abbrev main_call0_v43 : Ref sig .tc := ⟨.hbm, 66, rfl⟩
abbrev main_call0_v44 : Ref sig .tc := ⟨.hbm, 67, rfl⟩
abbrev main_call0_v45 : Ref sig .tc := ⟨.hbm, 68, rfl⟩
abbrev main_call0_cst_10 : Ref sig .tc := ⟨.hbm, 69, rfl⟩
abbrev main_call0_call4_v0 : Ref sig .tc := ⟨.hbm, 70, rfl⟩
abbrev main_call0_call4_v1 : Ref sig .tc := ⟨.hbm, 71, rfl⟩
abbrev main_call0_v46 : Ref sig .tc := ⟨.hbm, 72, rfl⟩
abbrev main_call0_cst_11 : Ref sig .tc := ⟨.hbm, 73, rfl⟩
abbrev main_call0_v47 : Ref sig .tc := ⟨.hbm, 74, rfl⟩
abbrev main_call0_v48 : Ref sig .tc := ⟨.hbm, 75, rfl⟩
abbrev main_call0_cst_12 : Ref sig .tc := ⟨.hbm, 76, rfl⟩
abbrev main_call0_v49 : Ref sig .tc := ⟨.hbm, 77, rfl⟩
abbrev main_call0_v50 : Ref sig .tc := ⟨.hbm, 78, rfl⟩
abbrev main_call0_v51 : Ref sig .tc := ⟨.hbm, 79, rfl⟩
abbrev main_call0_v52 : Ref sig .tc := ⟨.hbm, 80, rfl⟩
abbrev main_call0_v53 : Ref sig .tc := ⟨.hbm, 81, rfl⟩
abbrev main_call0_cst_13 : Ref sig .tc := ⟨.hbm, 82, rfl⟩
abbrev main_call0_v54 : Ref sig .tc := ⟨.hbm, 83, rfl⟩
abbrev main_call0_v55 : Ref sig .tc := ⟨.hbm, 84, rfl⟩
abbrev main_call0_cst_14 : Ref sig .tc := ⟨.hbm, 85, rfl⟩
abbrev main_call0_v56 : Ref sig .tc := ⟨.hbm, 86, rfl⟩
abbrev main_call0_v57 : Ref sig .tc := ⟨.hbm, 87, rfl⟩
abbrev main_call0_cst_15 : Ref sig .tc := ⟨.hbm, 88, rfl⟩
abbrev main_call0_v58 : Ref sig .tc := ⟨.hbm, 89, rfl⟩
abbrev main_call0_v59 : Ref sig .tc := ⟨.hbm, 90, rfl⟩
abbrev main_call0_cst_16 : Ref sig .tc := ⟨.hbm, 91, rfl⟩
abbrev main_call0_v60 : Ref sig .tc := ⟨.hbm, 92, rfl⟩
abbrev main_call0_v61 : Ref sig .tc := ⟨.hbm, 93, rfl⟩
abbrev main_call0_c_17 : Ref sig .tc := ⟨.hbm, 94, rfl⟩
abbrev main_call0_v62 : Ref sig .tc := ⟨.hbm, 95, rfl⟩
abbrev main_call0_cst_18 : Ref sig .tc := ⟨.hbm, 96, rfl⟩
abbrev main_call0_call5_v0 : Ref sig .tc := ⟨.hbm, 97, rfl⟩
abbrev main_call0_call5_v1 : Ref sig .tc := ⟨.hbm, 98, rfl⟩
abbrev main_call0_v63 : Ref sig .tc := ⟨.hbm, 99, rfl⟩
abbrev main_call0_cst_19 : Ref sig .tc := ⟨.hbm, 100, rfl⟩
abbrev main_call0_v64 : Ref sig .tc := ⟨.hbm, 101, rfl⟩
abbrev main_call0_cst_20 : Ref sig .tc := ⟨.hbm, 102, rfl⟩
abbrev main_call0_v65 : Ref sig .tc := ⟨.hbm, 103, rfl⟩
abbrev main_call0_cst_21 : Ref sig .tc := ⟨.hbm, 104, rfl⟩
abbrev main_call0_v66 : Ref sig .tc := ⟨.hbm, 105, rfl⟩
abbrev main_call0_v67 : Ref sig .tc := ⟨.hbm, 106, rfl⟩
abbrev main_call0_cst_22 : Ref sig .tc := ⟨.hbm, 107, rfl⟩
abbrev main_call0_v68 : Ref sig .tc := ⟨.hbm, 108, rfl⟩
abbrev main_call0_cst_23 : Ref sig .tc := ⟨.hbm, 109, rfl⟩
abbrev main_call0_v69 : Ref sig .tc := ⟨.hbm, 110, rfl⟩
abbrev main_call0_cst_24 : Ref sig .tc := ⟨.hbm, 111, rfl⟩
abbrev main_call0_v70 : Ref sig .tc := ⟨.hbm, 112, rfl⟩
abbrev main_v0_0 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c1024_i32 : BitVec 32 := 1024#32
  let v3 : BitVec 32 := Scalar.muli arg4 c1024_i32
  v3
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c1024_i32 : BitVec 32 := 1024#32
  let v3 : BitVec 32 := Scalar.muli arg4 c1024_i32
  let v4 : BitVec 32 := v3
  let v5 : Index := Scalar.indexCast v4
  let c0_2 : Index := 0#32
  ![v5.toNat, 0]
def k0_off2 (k0_t1 : Fin k0_t1_loop.trips) : Fin 2 → Nat :=
  let c0_3 : Index := 0#32
  let c0_i32 : BitVec 32 := 0#32
  let c1_i32 : BitVec 32 := 1#32
  let arg4 : BitVec 32 := Scf.iv c0_i32 c1_i32 k0_t1
  let c1024_i32 : BitVec 32 := 1024#32
  let v3 : BitVec 32 := Scalar.muli arg4 c1024_i32
  let v4 : BitVec 32 := v3
  let v9 : Index := Scalar.indexCast v4
  ![0, v9.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S128x768_S128_d1 : S128x768.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x768_0_1 : S128x1.BroadcastsInDim S128x768 (![0, 1] : Fin 2 → Fin S128x768.rank)
  bitsLt_bf16_f32 : FTy.bits .bf16 < FTy.bits .f32
  bcast_S_S128 : S_.BroadcastsInDim S128 (![] : Fin 0 → Fin S128.rank)
  transposes_S128x768_S768x128_1_0 : S128x768.Transposes [1, 0] S768x128
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  reducesTo_S128x128_S128_d1 : S128x128.ReducesTo [1] S128
  reducesTo_S128_S_d0 : S128.ReducesTo [0] S_
  reducesTo_S128x128_S_d0_1 : S128x128.ReducesTo [0, 1] S_
  inb_S128x768_S128x768_0_0 : ∀ a, (![0, 0] : Fin 2 → Nat) a + S128x768.size a ≤ S128x768.size a
  h_S128x768 : 0 < S128x768.numel
  shapeCasts_S128x768_S128x768 : S128x768.ShapeCasts S128x768
  h_S1024x768 : 0 < S1024x768.numel
  h_S128x1024 : 0 < S128x1024.numel
  gather_S65536x768_S128x1_S128x768_1_0_n_n_0_1_1768_wf : GatherDims.WF S65536x768 S128x1 S128x768 [1] [0] [] [0] [] 1 ![1, 768]
  dot_S128x768_S768x128_S128x128_1_0_0_1_n_n_wf : DotDims.WF S128x768 S768x128 S128x128 [1] [0] [0] [1] [] []
  dot_S128x768_S1024x768_S128x1024_1_1_0_0_n_n_wf : DotDims.WF S128x768 S1024x768 S128x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x768.size a ≤ S4096x768.size a
  k0_off2_inb : ∀ k0_t1 : Fin k0_t1_loop.trips, ∀ a, (k0_off2 k0_t1) a + S128x1024.size a ≤ S128x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S128x768.size a
  hwx0_0 : ∀ i : grid0.Coords, EltTy.bits .bf16 = 32 ∨ (Rect.block (s := S128x768) S128x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x768.size a ≤ S65536x768.size a
  hwx0_1 : ∀ i : grid0.Coords, EltTy.bits .f32 = 32 ∨ (Rect.block (s := S65536x768) S4096x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x65536.size a
  hwx0_2 : ∀ i : grid0.Coords, EltTy.bits .f32 = 32 ∨ (Rect.block (s := S128x65536) S128x4096.size (cc0_transform_2 i) (hinb0_2 i)).WholeWords (EltTy.packing .f32)

variable [Facts₀]

def gather_S65536x768_S128x1_S128x768_1_0_n_n_0_1_1768 : GatherDims S65536x768 S128x1 S128x768 where
  offsetDims := [1]
  collapsedSliceDims := [0]
  operandBatchingDims := []
  startIndicesBatchingDims := []
  startIndexMap := [0]
  indexVectorDim := 1
  sliceSizes := ![1, 768]
  wf := gather_S65536x768_S128x1_S128x768_1_0_n_n_0_1_1768_wf
def dot_S128x768_S768x128_S128x128_1_0_0_1_n_n : DotDims S128x768 S768x128 S128x128 where
  lhsContracting := [1]
  rhsContracting := [0]
  lhsNonContracting := [0]
  rhsNonContracting := [1]
  lhsBatch := []
  rhsBatch := []
  wf := dot_S128x768_S768x128_S128x128_1_0_0_1_n_n_wf
def dot_S128x768_S1024x768_S128x1024_1_1_0_0_n_n : DotDims S128x768 S1024x768 S128x1024 where
  lhsContracting := [1]
  rhsContracting := [1]
  lhsNonContracting := [0]
  rhsNonContracting := [0]
  lhsBatch := []
  rhsBatch := []
  wf := dot_S128x768_S1024x768_S128x1024_1_1_0_0_n_n_wf

abbrev win0_0 : Pipeline.Window sig grid0 :=
  Pipeline.Window.ofSpec (Memref.whole main_call0_v5) S128x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x768 : Shape := ⟨2, ![128, 768]⟩
abbrev S128 : Shape := ⟨1, ![128]⟩
abbrev S65536x768 : Shape := ⟨2, ![65536, 768]⟩
abbrev S_ : Shape := ⟨0, ![]⟩
abbrev S128x1 : Shape := ⟨2, ![128, 1]⟩
abbrev S768x65536 : Shape := ⟨2, ![768, 65536]⟩
abbrev S128x65536 : Shape := ⟨2, ![128, 65536]⟩
abbrev S768x128 : Shape := ⟨2, ![768, 128]⟩
abbrev S128x128 : Shape := ⟨2, ![128, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S128x768, .f32⟩
  | .hbm, ⟨1, _⟩ => ⟨S128, .i32⟩
  | .hbm, ⟨2, _⟩ => ⟨S65536x768, .f32⟩
  | .hbm, ⟨3, _⟩ => ⟨S128x768, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S128x768, .f32⟩
  | .hbm, ⟨12, _⟩ => ⟨S128x768, .f32⟩
  | .hbm, ⟨13, _⟩ => ⟨S768x65536, .f32⟩
  | .hbm, ⟨14, _⟩ => ⟨S128x65536, .f32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S128x1, .i32⟩
  | .hbm, ⟨23, _⟩ => ⟨S128x768, .f32⟩
  | .hbm, ⟨24, _⟩ => ⟨S768x128, .f32⟩
  | .hbm, ⟨25, _⟩ => ⟨S128x128, .f32⟩
  | .hbm, ⟨26, _⟩ => ⟨S128x1, .i32⟩
  | .hbm, ⟨27, _⟩ => ⟨S1x128, .i32⟩
  | .hbm, ⟨28, _⟩ => ⟨S128x128, .i32⟩
  | .hbm, ⟨29, _⟩ => ⟨S128x128, .i32⟩
  | .hbm, ⟨30, _⟩ => ⟨S128x128, .i1⟩
  | .hbm, ⟨31, _⟩ => ⟨S128x128, .i1⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128, .f32⟩
  | .hbm, ⟨41, _⟩ => ⟨S128x1, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S_, .f32⟩
  | .hbm, ⟨46, _⟩ => ⟨S_, .f32⟩
  | .hbm, ⟨47, _⟩ => ⟨S128x128, .f32⟩
  | .hbm, ⟨48, _⟩ => ⟨S128x128, .f32⟩
  | .hbm, ⟨49, _⟩ => ⟨S_, .f32⟩
  | .hbm, ⟨50, _⟩ => ⟨S128, .f32⟩
  | .hbm, ⟨51, _⟩ => ⟨S128x1, .f32⟩
  | .hbm, ⟨52, _⟩ => ⟨S_, .f32⟩
  | .hbm, ⟨53, _⟩ => ⟨S128x1, .f32⟩
  | .hbm, ⟨54, _⟩ => ⟨S128x1, .f32⟩
  | .hbm, ⟨55, _⟩ => ⟨S128x128, .f32⟩
  | .hbm, ⟨56, _⟩ => ⟨S128x128, .f32⟩
  | .hbm, ⟨57, _⟩ => ⟨S_, .f32⟩
  | .hbm, ⟨58, _⟩ => ⟨S128x128, .f32⟩
  | .hbm, ⟨59, _⟩ => ⟨S128x128, .f32⟩
  | .hbm, ⟨60, _⟩ => ⟨S_, .f32⟩
  | .hbm, ⟨61, _⟩ => ⟨S128x128, .f32⟩
  | .hbm, ⟨62, _⟩ => ⟨S128x128, .f32⟩
  | .hbm, ⟨63, _⟩ => ⟨S_, .f32⟩
  | .hbm, ⟨64, _⟩ => ⟨S128, .f32⟩
  | .hbm, ⟨65, _⟩ => ⟨S128x1, .f32⟩
  | .hbm, ⟨66, _⟩ => ⟨S128x128, .f32⟩
  | .hbm, ⟨67, _⟩ => ⟨S128x128, .f32⟩
  | .hbm, ⟨68, _⟩ => ⟨S128x128, .f32⟩
  | .hbm, ⟨69, _⟩ => ⟨S_, .f32⟩
  | .hbm, ⟨70, _⟩ => ⟨S_, .f32⟩
  | .hbm, ⟨71, _⟩ => ⟨S128x128, .f32⟩
  | .hbm, ⟨72, _⟩ => ⟨S128x128, .f32⟩
  | .hbm, ⟨73, _⟩ => ⟨S_, .f32⟩
  | .hbm, ⟨74, _⟩ => ⟨S128, .f32⟩
  | .hbm, ⟨75, _⟩ => ⟨S128x1, .f32⟩
  | .hbm, ⟨76, _⟩ => ⟨S_, .f32⟩
  | .hbm, ⟨77, _⟩ => ⟨S128x1, .f32⟩
  | .hbm, ⟨78, _⟩ => ⟨S128x1, .f32⟩
  | .hbm, ⟨79, _⟩ => ⟨S128x128, .f32⟩
  | .hbm, ⟨80, _⟩ => ⟨S128x128, .f32⟩
  | .hbm, ⟨81, _⟩ => ⟨S128x128, .f32⟩
  | .hbm, ⟨82, _⟩ => ⟨S_, .f32⟩
  | .hbm, ⟨83, _⟩ => ⟨S128, .f32⟩
  | .hbm, ⟨84, _⟩ => ⟨S128x128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S_, .i1⟩
  | .hbm, ⟨95, _⟩ => ⟨S128, .i1⟩
  | .hbm, ⟨96, _⟩ => ⟨S_, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S128x128, .f32⟩
  | .hbm, ⟨106, _⟩ => ⟨S128x128, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_call1_v0 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_call2_v0 : Ref sig .tc := ⟨.hbm, 46, rfl⟩
abbrev main_call2_v1 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_call3_v0 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_call4_v0 : Ref sig .tc := ⟨.hbm, 70, rfl⟩
abbrev main_call4_v1 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_v54 : Ref sig .tc := ⟨.hbm, 83, rfl⟩
abbrev main_v55 : Ref sig .tc := ⟨.hbm, 84, rfl⟩
abbrev main_cst_14 : Ref sig .tc := ⟨.hbm, 85, rfl⟩
abbrev main_v56 : Ref sig .tc := ⟨.hbm, 86, rfl⟩
abbrev main_v57 : Ref sig .tc := ⟨.hbm, 87, rfl⟩
abbrev main_cst_15 : Ref sig .tc := ⟨.hbm, 88, rfl⟩
abbrev main_v58 : Ref sig .tc := ⟨.hbm, 89, rfl⟩
abbrev main_v59 : Ref sig .tc := ⟨.hbm, 90, rfl⟩
abbrev main_cst_16 : Ref sig .tc := ⟨.hbm, 91, rfl⟩
abbrev main_v60 : Ref sig .tc := ⟨.hbm, 92, rfl⟩
abbrev main_v61 : Ref sig .tc := ⟨.hbm, 93, rfl⟩
abbrev main_c_17 : Ref sig .tc := ⟨.hbm, 94, rfl⟩
abbrev main_v62 : Ref sig .tc := ⟨.hbm, 95, rfl⟩
abbrev main_cst_18 : Ref sig .tc := ⟨.hbm, 96, rfl⟩
abbrev main_call5_v0 : Ref sig .tc := ⟨.hbm, 97, rfl⟩
abbrev main_call5_v1 : Ref sig .tc := ⟨.hbm, 98, rfl⟩
abbrev main_v63 : Ref sig .tc := ⟨.hbm, 99, rfl⟩
abbrev main_cst_19 : Ref sig .tc := ⟨.hbm, 100, rfl⟩
abbrev main_v64 : Ref sig .tc := ⟨.hbm, 101, rfl⟩
abbrev main_cst_20 : Ref sig .tc := ⟨.hbm, 102, rfl⟩
abbrev main_v65 : Ref sig .tc := ⟨.hbm, 103, rfl⟩
abbrev main_cst_21 : Ref sig .tc := ⟨.hbm, 104, rfl⟩
abbrev main_v66 : Ref sig .tc := ⟨.hbm, 105, rfl⟩
abbrev main_v67 : Ref sig .tc := ⟨.hbm, 106, rfl⟩
abbrev main_cst_22 : Ref sig .tc := ⟨.hbm, 107, rfl⟩
abbrev main_v68 : Ref sig .tc := ⟨.hbm, 108, rfl⟩
abbrev main_cst_23 : Ref sig .tc := ⟨.hbm, 109, rfl⟩
abbrev main_v69 : Ref sig .tc := ⟨.hbm, 110, rfl⟩
abbrev main_cst_24 : Ref sig .tc := ⟨.hbm, 111, rfl⟩
abbrev main_v70 : Ref sig .tc := ⟨.hbm, 112, rfl⟩
abbrev main_v71 : Ref sig .tc := ⟨.hbm, 113, rfl⟩

abbrev nD : Nat := 1
abbrev τ : Topo := Topo.v7x

variable {F : FTy → Type} [FloatOps F]

class Facts₀ : Prop where
  reducesTo_S128x768_S128_d1 : S128x768.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x768_0_1 : S128x1.BroadcastsInDim S128x768 (![0, 1] : Fin 2 → Fin S128x768.rank)
  transposes_S65536x768_S768x65536_1_0 : S65536x768.Transposes [1, 0] S768x65536
  bcast_S_S128 : S_.BroadcastsInDim S128 (![] : Fin 0 → Fin S128.rank)
  transposes_S128x768_S768x128_1_0 : S128x768.Transposes [1, 0] S768x128
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  reducesTo_S128x128_S128_d1 : S128x128.ReducesTo [1] S128
  reducesTo_S128_S_d0 : S128.ReducesTo [0] S_
  reducesTo_S128x128_S_d0_1 : S128x128.ReducesTo [0, 1] S_
  dot_S128x768_S768x65536_S128x65536_1_0_0_1_n_n_wf : DotDims.WF S128x768 S768x65536 S128x65536 [1] [0] [0] [1] [] []
  gather_S65536x768_S128x1_S128x768_1_0_n_n_0_1_1768_wf : GatherDims.WF S65536x768 S128x1 S128x768 [1] [0] [] [0] [] 1 ![1, 768]
  dot_S128x768_S768x128_S128x128_1_0_0_1_n_n_wf : DotDims.WF S128x768 S768x128 S128x128 [1] [0] [0] [1] [] []

variable [Facts₀]

def dot_S128x768_S768x65536_S128x65536_1_0_0_1_n_n : DotDims S128x768 S768x65536 S128x65536 where
  lhsContracting := [1]
  rhsContracting := [0]
  lhsNonContracting := [0]
  rhsNonContracting := [1]
  lhsBatch := []
  rhsBatch := []
  wf := dot_S128x768_S768x65536_S128x65536_1_0_0_1_n_n_wf
def gather_S65536x768_S128x1_S128x768_1_0_n_n_0_1_1768 : GatherDims S65536x768 S128x1 S128x768 where
  offsetDims := [1]
  collapsedSliceDims := [0]
  operandBatchingDims := []
  startIndicesBatchingDims := []
  startIndexMap := [0]
  indexVectorDim := 1
  sliceSizes := ![1, 768]
  wf := gather_S65536x768_S128x1_S128x768_1_0_n_n_0_1_1768_wf
def dot_S128x768_S768x128_S128x128_1_0_0_1_n_n : DotDims S128x768 S768x128 S128x128 where
  lhsContracting := [1]
  rhsContracting := [0]
  lhsNonContracting := [0]
  rhsNonContracting := [1]
  lhsBatch := []
  rhsBatch := []
  wf := dot_S128x768_S768x128_S128x128_1_0_0_1_n_n_wf

class Facts : Prop extends Facts₀ where

variable [Facts]
-- ==== Proof.KernelHost.lean ====
/-
  The host lines of `Kernel`'s @main around its one region. @main is eleven host operations (the row norms of
  the first argument, the clamp at 1e-12, the quotient, its narrowing to bf16), the region, and ninety-nine host
  operations (the gather of the bank's rows at the targets, the 128 x 128 similarity matrix, the two masked
  softmaxes, the hinge, the two means and their weighted sum). Here: the buffer contents the region is entered
  with, as the fold of the first stretch over the launch memory; that @main is that stretch, the region, and
  the second stretch run after it; that the second stretch names only unscoped TensorCore buffers, allocates
  nothing, and writes none of the three arrays the region's windows stage (the bf16 quotient, the bank, the
  product); and that no host operation, before or after the region, writes an argument array.
-/
import proofs.«410077_j85126251807521_3_alg».proof.Proof.Gen.Kernel.Launch
import Idealize.ShloMosaic.Lib.Pipeline.FrameBody
import Idealize.ShloMosaic.Lib.Pipeline.FrameSuffix

set_option maxRecDepth 16384
-- the ninety-nine-operation stretch stands in the types of most statements here
set_option maxHeartbeats 40000000

noncomputable section

namespace Cert.Kernel.Around

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ) (ρ : Dev nD → PrngReg)

/-! ## The contents the region is entered with -/

/-- Core `c`'s TensorCore buffers when the region is entered: the launch memory after the eleven operations
    that normalise the first argument's rows and narrow the quotient. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation before the region allocates a buffer. -/
theorem before_fresh : (hostOps0 : List (HloOp τ sig (Elt F))).Forall fun op => op.fresh = ∅ := by
  simp only [List.Forall]; repeat' constructor
set_option maxHeartbeats 4000000 in
/-- Nor does one after it. -/
theorem after_fresh : (hostOps1 : List (HloOp τ sig (Elt F))).Forall fun op => op.fresh = ∅ := by
  simp only [List.Forall]; repeat' constructor

/-- @main is the first stretch, the region, and then the second stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-! ## The second stretch against the region's arrays -/

/-- Every buffer an operation after the region names is an unscoped TensorCore buffer: one of the region's three
    arrays or a buffer the region never touches. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem after_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop

set_option maxHeartbeats 40000000 in
/-- Each operation after the region writes its own result buffer only, and none of those is the bf16 quotient,
    the bank, or the product: all ninety-nine at once. -/
theorem after_keeps_all : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp after_keeps_all) op hop

/-! ## The argument arrays through the host lines -/

/-- No operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No operation after the region writes argument 0, and no window stages it: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 40000000 in
/-- No operation after the region writes argument 1, and no window stages it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

end Cert.Kernel.Around

end
-- ==== Proof.KernelBody.lean ====
/-
  The body of `Kernel`'s one kernel, run once. At a grid point the body loads the whole resident 128 x 768 bf16
  query block, and in four trips of a counted loop loads rows 1024 k .. 1024 k + 1023 of the 4096 x 768 tile of
  the bank, narrows them to bf16, multiplies the query by their transpose into a zero accumulator (contracting all
  768 columns), and stores the 128 x 1024 product into columns 1024 k .. 1024 k + 1023 of the 128 x 4096 output
  tile. Here: that run as a Hoare triple on any whole staging buffers, the two inputs' kept as they were and the
  output's overwritten by the four trips' pieces; that those four pieces tile the output tile, so they determine
  it whatever it held before; and the tile they leave.
-/
import proofs.«410077_j85126251807521_3_alg».proof.Proof.Gen.Kernel.Skeleton
import proofs.«410077_j85126251807521_3_alg».proof.Proof.Gen.Kernel.Loops
import proofs.«410077_j85126251807521_3_alg».proof.Proof.Gen.Kernel.Launch
import proofs.«410077_j85126251807521_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The run -/

set_option maxHeartbeats 4000000 in
/-- The pieces the four trips store into the output buffer (last first), with the triple: from the query buffer at
    `x0`, the bank tile's buffer at `x1` and the output buffer at anything, the body runs to its continuation
    with the inputs' buffers unchanged and the output's holding those pieces written over what it held. -/
noncomputable def gemmRun (c : Dev nD) (i : grid0.Coords) (arg1 : Memref sig .tc .vmem S128x768 .bf16) (harg1 : arg1.IsWhole) (arg2 : Memref sig .tc .vmem S4096x768 .f32) (harg2 : arg2.IsWhole) (arg3 : Memref sig .tc .vmem S128x4096 .f32) (harg3 : arg3.IsWhole)
    (x0 : Vec F S128x768 .bf16) (x1 : Vec F S4096x768 .f32) :
    { L : List (View.Piece (Elt F) S128x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc0__gemm_kernel i arg1 harg1 arg2 harg2 arg3 harg3) K } := by
  refine ⟨?_, fun E K => ?run⟩
  case run =>
    simp only [cc0__gemm_kernel_eq_skeleton]; unfold cc0__gemm_kernel_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-! ## The four pieces tile the output tile -/

/-- Four stores of 128 x 1024 at column offsets 0, 1024, 2048, 3072: every index of the 128 x 4096 tile lies in
    one of them. -/
theorem gemm_cover (c : Dev nD) (i : grid0.Coords) (arg1 : Memref sig .tc .vmem S128x768 .bf16) (harg1 : arg1.IsWhole) (arg2 : Memref sig .tc .vmem S4096x768 .f32) (harg2 : arg2.IsWhole) (arg3 : Memref sig .tc .vmem S128x4096 .f32) (harg3 : arg3.IsWhole)
    (x0 : Vec F S128x768 .bf16) (x1 : Vec F S4096x768 .f32) (y : S128x4096.Idx) :
    ∃ pc ∈ (gemmRun c i arg1 harg1 arg2 harg2 arg3 harg3 x0 x1).1, y ∈ pc.1.set :=
  View.cover_of_tiledL (gemmRun c i arg1 harg1 arg2 harg2 arg3 harg3 x0 x1).1 S128x1024.size (by sl_kernel_rfl) y

/-- What the run leaves in the output buffer: its pieces, read as one 128 x 4096 tile. -/
def gemmTile (c : Dev nD) (i : grid0.Coords) (arg1 : Memref sig .tc .vmem S128x768 .bf16) (harg1 : arg1.IsWhole) (arg2 : Memref sig .tc .vmem S4096x768 .f32) (harg2 : arg2.IsWhole) (arg3 : Memref sig .tc .vmem S128x4096 .f32) (harg3 : arg3.IsWhole)
    (x0 : Vec F S128x768 .bf16) (x1 : Vec F S4096x768 .f32) : Vec F S128x4096 .f32 :=
  View.canon (gemmRun c i arg1 harg1 arg2 harg2 arg3 harg3 x0 x1).1

end Cert.Kernel.Around

end
-- ==== Proof.KernelFrame.lean ====
/-
  The frame of `Kernel`: every weakly fair execution of @main ends, nothing faults, and the three argument arrays
  end as launched. The one region runs sixteen grid points; at point t the pipeline has the whole bf16 query
  (fetched once, at the first point) in its single staging buffer, rows 4096 t .. 4096 t + 4095 of the bank in
  the current one of two, and writes the 128 x 4096 tile the body leaves back to columns 4096 t .. 4096 t + 4095
  of the product. The proof data say so: each input buffer holds its block of the array as the region found it,
  the output buffer holds the tile of the body's run on those two blocks. Around the region stand the host lines
  of the companion module; none of them writes an argument, the query and the bank are only read by the region,
  so the arguments end unchanged. The run also names what the two results end at: the product array as the
  sixteen tiles written back, the scalar as the later host lines applied to what the region leaves.
-/
import proofs.«410077_j85126251807521_3_alg».proof.Proof.KernelHost
import proofs.«410077_j85126251807521_3_alg».proof.Proof.KernelBody

set_option maxRecDepth 16384
-- the ninety-nine-operation stretch stands in the type of the run
set_option maxHeartbeats 40000000

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query's staging buffer holds the whole query at every point, although it is fetched at the first only:
    its block index never moves. -/
theorem query_before {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The bank's current staging buffer holds rows 4096 t .. 4096 t + 4095 at point t. -/
theorem bank_before {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point, and the tile the body leaves there -/

abbrev qbuf (t : Fin cfg0.N) : Memref sig .tc .vmem S128x768 .bf16 := win0_0.stage (cfg0.slots t 0)
abbrev qbuf_whole (t : Fin cfg0.N) : (qbuf t).IsWhole := hstage0_0 ((cfg0.slots t 0).cast nbuf0_0)
abbrev bbuf (t : Fin cfg0.N) : Memref sig .tc .vmem S4096x768 .f32 := win0_1.stage (cfg0.slots t 1)
abbrev bbuf_whole (t : Fin cfg0.N) : (bbuf t).IsWhole := hstage0_1 ((cfg0.slots t 1).cast nbuf0_1)
abbrev obuf (t : Fin cfg0.N) : Memref sig .tc .vmem S128x4096 .f32 := win0_2.stage (cfg0.slots t 2)
abbrev obuf_whole (t : Fin cfg0.N) : (obuf t).IsWhole := hstage0_2 ((cfg0.slots t 2).cast nbuf0_2)

/-- The 128 x 4096 tile the body leaves at point `t`: its run on the query and on the bank's rows of that point. -/
def tileAt (c : Dev nD) (t : Fin cfg0.N) : Vec F S128x4096 .f32 :=
  gemmTile c (grid0.coords t) (qbuf t) (qbuf_whole t) (bbuf t) (bbuf_whole t) (obuf t) (obuf_whole t) (iblk m c 0 t) (iblk m c 1 t)

/-! ## The proof data -/

/-- On core `c`: the arrays as the region finds them; after the body at point `t` the query's buffer at the
    query, the bank's at its rows, the output's at the tile; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_query (c : Dev nD) (t : Fin cfg0.N) : (dats m 0 c).after 0 t = iblk m c 0 t := by dsimp only [dats]
theorem after_bank (c : Dev nD) (t : Fin cfg0.N) : (dats m 0 c).after 1 t = iblk m c 1 t := by dsimp only [dats]
theorem after_tile (c : Dev nD) (t : Fin cfg0.N) : (dats m 0 c).after 2 t = tileAt m c t := by dsimp only [dats]

theorem before_query (c : Dev nD) (t : Fin cfg0.N) (d) : (dats m 0 c).before 0 t d = iblk m c 0 t :=
  query_before m (dats m 0 c) (A_eq m c 0) (after_query m c) t d
theorem before_bank (c : Dev nD) (t : Fin cfg0.N) (d) : (dats m 0 c).before 1 t d = iblk m c 1 t :=
  bank_before m (dats m 0 c) (A_eq m c 1) (after_bank m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (qbuf t) fullShare ((dats m 0 c).before 0 t d))
    ∗ (∃ d, owns (c : Thread nD τ) (bbuf t) fullShare ((dats m 0 c).before 1 t d))
    ∗ (∃ d, owns (c : Thread nD τ) (obuf t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (qbuf t) fullShare ((dats m 0 c).after 0 t)
    ∗ owns (c : Thread nD τ) (bbuf t) fullShare ((dats m 0 c).after 1 t)
    ∗ owns (c : Thread nD τ) (obuf t) fullShare ((dats m 0 c).after 2 t))

/-- The body at any point: the inputs' buffers hold their blocks, so the run applies; its four pieces cover the
    output buffer, so what that buffer held before does not matter. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_query, before_bank]
  rw [show (dats m 0 c).Φ t.succ = (dats m 0 c).Φ t.castSucc from rfl,
    show (dats m 0 c).owesAt () t.succ = (dats m 0 c).owesAt () t.castSucc from rfl,
    after_query, after_bank, after_tile]
  unfold tileAt gemmTile
  iintro ⟨HΦ, Ho, ⟨%d0, H0⟩, ⟨%d1, H1⟩, ⟨%d2, H2⟩⟩
  iapply ((gemmRun c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_eq_canon _ _ _ (gemm_cover c _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run, the frame, and the results named -/

set_option backward.isDefEq.respectTransparency.types false in
/-- Every weakly fair execution of @main ends with each of the region's three arrays at what the write-backs make
    of it and every other unscoped buffer as the later host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := after_sub) (hfresh := after_alloc) (hkeep := after_keeps)
    (hmain := hmain m Variants.none) (hA := A_eq m) (hΦ := fun _ _ => rfl)

/-- The run with its results named: the scalar as the later host lines leave it, the product as the array the
    sixteen write-backs make, the three arguments as launched (the first two are no window's array and no host
    line writes them; the bank is staged, read, and never written back). -/
theorem run_named : θ_run defs (onTc (τ := τ) (main (F := F))) ⟨m, fun _ => 0, ρ⟩ (fun r => ∀ c : Dev nD,
      r.2.mem ((c.tc : Thread nD τ).loc main_v0_0) = Pipeline.afterTail₀ cfgs (dats m) 0 (V0 m) [hostOps1] c main_v0_0
      ∧ r.2.mem ((c.tc : Thread nD τ).loc main_v0_1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v0_0 (Pipeline.mem_restRefs_of main_v0_0 (by decide) (by decide)),
      (h c).1 2,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2.2.1, (h c).2.2.2.1, (h c).2.2.2.2⟩) (run_named m ρ)

end Cert.Kernel.Around

end
-- ==== Proof.KernelIdealHost.lean ====
/-
  The host lines of `KernelIdeal`'s @main around its one region. @main is eleven host operations (the row norms of
  the first argument, the clamp at 1e-12, the quotient, its narrowing to bf16), the region, and ninety-nine host
  operations (the gather of the bank's rows at the targets, the 128 x 128 similarity matrix, the two masked
  softmaxes, the hinge, the two means and their weighted sum). Here: the buffer contents the region is entered
  with, as the fold of the first stretch over the launch memory; that @main is that stretch, the region, and
  the second stretch run after it; that the second stretch names only unscoped TensorCore buffers, allocates
  nothing, and writes none of the three arrays the region's windows stage (the bf16 quotient, the bank, the
  product); and that no host operation, before or after the region, writes an argument array.
-/
import proofs.«410077_j85126251807521_3_alg».proof.Proof.Gen.KernelIdeal.Launch
import Idealize.ShloMosaic.Lib.Pipeline.FrameBody
import Idealize.ShloMosaic.Lib.Pipeline.FrameSuffix

set_option maxRecDepth 16384
-- the ninety-nine-operation stretch stands in the types of most statements here
set_option maxHeartbeats 40000000

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ) (ρ : Dev nD → PrngReg)

/-! ## The contents the region is entered with -/

/-- Core `c`'s TensorCore buffers when the region is entered: the launch memory after the eleven operations
    that normalise the first argument's rows and narrow the quotient. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation before the region allocates a buffer. -/
theorem before_fresh : (hostOps0 : List (HloOp τ sig (Elt F))).Forall fun op => op.fresh = ∅ := by
  simp only [List.Forall]; repeat' constructor
set_option maxHeartbeats 4000000 in
/-- Nor does one after it. -/
theorem after_fresh : (hostOps1 : List (HloOp τ sig (Elt F))).Forall fun op => op.fresh = ∅ := by
  simp only [List.Forall]; repeat' constructor

/-- @main is the first stretch, the region, and then the second stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-! ## The second stretch against the region's arrays -/

/-- Every buffer an operation after the region names is an unscoped TensorCore buffer: one of the region's three
    arrays or a buffer the region never touches. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem after_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop

set_option maxHeartbeats 40000000 in
/-- Each operation after the region writes its own result buffer only, and none of those is the bf16 quotient,
    the bank, or the product: all ninety-nine at once. -/
theorem after_keeps_all : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp after_keeps_all) op hop

/-! ## The argument arrays through the host lines -/

/-- No operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No operation after the region writes argument 0, and no window stages it: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 40000000 in
/-- No operation after the region writes argument 1, and no window stages it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

end Cert.KernelIdeal.Around

end
-- ==== Proof.KernelIdealBody.lean ====
/-
  The body of `KernelIdeal`'s one kernel, run once. At a grid point the body loads the whole resident 128 x 768 bf16
  query block, and in four trips of a counted loop loads rows 1024 k .. 1024 k + 1023 of the 4096 x 768 tile of
  the bank, narrows them to bf16, multiplies the query by their transpose into a zero accumulator (contracting all
  768 columns), and stores the 128 x 1024 product into columns 1024 k .. 1024 k + 1023 of the 128 x 4096 output
  tile. Here: that run as a Hoare triple on any whole staging buffers, the two inputs' kept as they were and the
  output's overwritten by the four trips' pieces; that those four pieces tile the output tile, so they determine
  it whatever it held before; and the tile they leave.
-/
import proofs.«410077_j85126251807521_3_alg».proof.Proof.Gen.KernelIdeal.Skeleton
import proofs.«410077_j85126251807521_3_alg».proof.Proof.Gen.KernelIdeal.Loops
import proofs.«410077_j85126251807521_3_alg».proof.Proof.Gen.KernelIdeal.Launch
import proofs.«410077_j85126251807521_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The run -/

set_option maxHeartbeats 4000000 in
/-- The pieces the four trips store into the output buffer (last first), with the triple: from the query buffer at
    `x0`, the bank tile's buffer at `x1` and the output buffer at anything, the body runs to its continuation
    with the inputs' buffers unchanged and the output's holding those pieces written over what it held. -/
noncomputable def gemmRun (c : Dev nD) (i : grid0.Coords) (arg1 : Memref sig .tc .vmem S128x768 .bf16) (harg1 : arg1.IsWhole) (arg2 : Memref sig .tc .vmem S4096x768 .f32) (harg2 : arg2.IsWhole) (arg3 : Memref sig .tc .vmem S128x4096 .f32) (harg3 : arg3.IsWhole)
    (x0 : Vec F S128x768 .bf16) (x1 : Vec F S4096x768 .f32) :
    { L : List (View.Piece (Elt F) S128x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L)) -∗ K ⟨⟩))
          ⊢ wp frame (wpE (defs₀ (F := F)) Variants.none c none) E (cc0__gemm_kernel i arg1 harg1 arg2 harg2 arg3 harg3) K } := by
  refine ⟨?_, fun E K => ?run⟩
  case run =>
    simp only [cc0__gemm_kernel_eq_skeleton]; unfold cc0__gemm_kernel_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-! ## The four pieces tile the output tile -/

/-- Four stores of 128 x 1024 at column offsets 0, 1024, 2048, 3072: every index of the 128 x 4096 tile lies in
    one of them. -/
theorem gemm_cover (c : Dev nD) (i : grid0.Coords) (arg1 : Memref sig .tc .vmem S128x768 .bf16) (harg1 : arg1.IsWhole) (arg2 : Memref sig .tc .vmem S4096x768 .f32) (harg2 : arg2.IsWhole) (arg3 : Memref sig .tc .vmem S128x4096 .f32) (harg3 : arg3.IsWhole)
    (x0 : Vec F S128x768 .bf16) (x1 : Vec F S4096x768 .f32) (y : S128x4096.Idx) :
    ∃ pc ∈ (gemmRun c i arg1 harg1 arg2 harg2 arg3 harg3 x0 x1).1, y ∈ pc.1.set :=
  View.cover_of_tiledL (gemmRun c i arg1 harg1 arg2 harg2 arg3 harg3 x0 x1).1 S128x1024.size (by sl_kernel_rfl) y

/-- What the run leaves in the output buffer: its pieces, read as one 128 x 4096 tile. -/
def gemmTile (c : Dev nD) (i : grid0.Coords) (arg1 : Memref sig .tc .vmem S128x768 .bf16) (harg1 : arg1.IsWhole) (arg2 : Memref sig .tc .vmem S4096x768 .f32) (harg2 : arg2.IsWhole) (arg3 : Memref sig .tc .vmem S128x4096 .f32) (harg3 : arg3.IsWhole)
    (x0 : Vec F S128x768 .bf16) (x1 : Vec F S4096x768 .f32) : Vec F S128x4096 .f32 :=
  View.canon (gemmRun c i arg1 harg1 arg2 harg2 arg3 harg3 x0 x1).1

end Cert.KernelIdeal.Around

end
-- ==== Proof.KernelIdealFrame.lean ====
/-
  The frame of `KernelIdeal`: every weakly fair execution of @main ends, nothing faults, and the three argument arrays
  end as launched. The one region runs sixteen grid points; at point t the pipeline has the whole bf16 query
  (fetched once, at the first point) in its single staging buffer, rows 4096 t .. 4096 t + 4095 of the bank in
  the current one of two, and writes the 128 x 4096 tile the body leaves back to columns 4096 t .. 4096 t + 4095
  of the product. The proof data say so: each input buffer holds its block of the array as the region found it,
  the output buffer holds the tile of the body's run on those two blocks. Around the region stand the host lines
  of the companion module; none of them writes an argument, the query and the bank are only read by the region,
  so the arguments end unchanged. The run also names what the two results end at: the product array as the
  sixteen tiles written back, the scalar as the later host lines applied to what the region leaves.
-/
import proofs.«410077_j85126251807521_3_alg».proof.Proof.KernelIdealHost
import proofs.«410077_j85126251807521_3_alg».proof.Proof.KernelIdealBody

set_option maxRecDepth 16384
-- the ninety-nine-operation stretch stands in the type of the run
set_option maxHeartbeats 40000000

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query's staging buffer holds the whole query at every point, although it is fetched at the first only:
    its block index never moves. -/
theorem query_before {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The bank's current staging buffer holds rows 4096 t .. 4096 t + 4095 at point t. -/
theorem bank_before {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point, and the tile the body leaves there -/

abbrev qbuf (t : Fin cfg0.N) : Memref sig .tc .vmem S128x768 .bf16 := win0_0.stage (cfg0.slots t 0)
abbrev qbuf_whole (t : Fin cfg0.N) : (qbuf t).IsWhole := hstage0_0 ((cfg0.slots t 0).cast nbuf0_0)
abbrev bbuf (t : Fin cfg0.N) : Memref sig .tc .vmem S4096x768 .f32 := win0_1.stage (cfg0.slots t 1)
abbrev bbuf_whole (t : Fin cfg0.N) : (bbuf t).IsWhole := hstage0_1 ((cfg0.slots t 1).cast nbuf0_1)
abbrev obuf (t : Fin cfg0.N) : Memref sig .tc .vmem S128x4096 .f32 := win0_2.stage (cfg0.slots t 2)
abbrev obuf_whole (t : Fin cfg0.N) : (obuf t).IsWhole := hstage0_2 ((cfg0.slots t 2).cast nbuf0_2)

/-- The 128 x 4096 tile the body leaves at point `t`: its run on the query and on the bank's rows of that point. -/
def tileAt (c : Dev nD) (t : Fin cfg0.N) : Vec F S128x4096 .f32 :=
  gemmTile c (grid0.coords t) (qbuf t) (qbuf_whole t) (bbuf t) (bbuf_whole t) (obuf t) (obuf_whole t) (iblk m c 0 t) (iblk m c 1 t)

/-! ## The proof data -/

/-- On core `c`: the arrays as the region finds them; after the body at point `t` the query's buffer at the
    query, the bank's at its rows, the output's at the tile; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_query (c : Dev nD) (t : Fin cfg0.N) : (dats m 0 c).after 0 t = iblk m c 0 t := by dsimp only [dats]
theorem after_bank (c : Dev nD) (t : Fin cfg0.N) : (dats m 0 c).after 1 t = iblk m c 1 t := by dsimp only [dats]
theorem after_tile (c : Dev nD) (t : Fin cfg0.N) : (dats m 0 c).after 2 t = tileAt m c t := by dsimp only [dats]

theorem before_query (c : Dev nD) (t : Fin cfg0.N) (d) : (dats m 0 c).before 0 t d = iblk m c 0 t :=
  query_before m (dats m 0 c) (A_eq m c 0) (after_query m c) t d
theorem before_bank (c : Dev nD) (t : Fin cfg0.N) (d) : (dats m 0 c).before 1 t d = iblk m c 1 t :=
  bank_before m (dats m 0 c) (A_eq m c 1) (after_bank m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (qbuf t) fullShare ((dats m 0 c).before 0 t d))
    ∗ (∃ d, owns (c : Thread nD τ) (bbuf t) fullShare ((dats m 0 c).before 1 t d))
    ∗ (∃ d, owns (c : Thread nD τ) (obuf t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (qbuf t) fullShare ((dats m 0 c).after 0 t)
    ∗ owns (c : Thread nD τ) (bbuf t) fullShare ((dats m 0 c).after 1 t)
    ∗ owns (c : Thread nD τ) (obuf t) fullShare ((dats m 0 c).after 2 t))

/-- The body at any point: the inputs' buffers hold their blocks, so the run applies; its four pieces cover the
    output buffer, so what that buffer held before does not matter. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_query, before_bank]
  rw [show (dats m 0 c).Φ t.succ = (dats m 0 c).Φ t.castSucc from rfl,
    show (dats m 0 c).owesAt () t.succ = (dats m 0 c).owesAt () t.castSucc from rfl,
    after_query, after_bank, after_tile]
  unfold tileAt gemmTile
  iintro ⟨HΦ, Ho, ⟨%d0, H0⟩, ⟨%d1, H1⟩, ⟨%d2, H2⟩⟩
  iapply ((gemmRun c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_eq_canon _ _ _ (gemm_cover c _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run, the frame, and the results named -/

set_option backward.isDefEq.respectTransparency.types false in
/-- Every weakly fair execution of @main ends with each of the region's three arrays at what the write-backs make
    of it and every other unscoped buffer as the later host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := after_sub) (hfresh := after_alloc) (hkeep := after_keeps)
    (hmain := hmain m Variants.none) (hA := A_eq m) (hΦ := fun _ _ => rfl)

/-- The run with its results named: the scalar as the later host lines leave it, the product as the array the
    sixteen write-backs make, the three arguments as launched (the first two are no window's array and no host
    line writes them; the bank is staged, read, and never written back). -/
theorem run_named : θ_run defs (onTc (τ := τ) (main (F := F))) ⟨m, fun _ => 0, ρ⟩ (fun r => ∀ c : Dev nD,
      r.2.mem ((c.tc : Thread nD τ).loc main_v0_0) = Pipeline.afterTail₀ cfgs (dats m) 0 (V0 m) [hostOps1] c main_v0_0
      ∧ r.2.mem ((c.tc : Thread nD τ).loc main_v0_1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v0_0 (Pipeline.mem_restRefs_of main_v0_0 (by decide) (by decide)),
      (h c).1 2,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2.2.1, (h c).2.2.2.1, (h c).2.2.2.2⟩) (run_named m ρ)

end Cert.KernelIdeal.Around

end
-- ==== Proof.KernelIdealPayload.lean ====
/-
  The kernel's matrix product read at an index, at the ideal values. The body's one payload takes the 128 x 768
  query block and a 1024 x 768 block of bank rows, narrows the rows' format (the identity on extended reals),
  and multiplies the query by the transpose of the rows into a zero accumulator, contracting the 768 columns of
  both. Here: entry (p, q) of the 128 x 1024 product is the sum over k < 768 of query (p, k) * rows (q, k).
-/
import proofs.«410077_j85126251807521_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen Idealize.ShloMosaic

/-! ## The operand indices of the product's dimension numbers

Both operands contract their axis 1 and keep their axis 0: the left operand's axis 0 is the product's axis 0, the
right operand's axis 0 is the product's axis 1, and on axis 1 each reads the contraction position's one coordinate. -/

/-- The left operand's row is the product's row. -/
theorem lhs_row (j : S128x1024.Idx) (q : dot_S128x768_S1024x768_S128x1024_1_1_0_0_n_n.contr.Idx) :
    (dot_S128x768_S1024x768_S128x1024_1_1_0_0_n_n.lhsIdx j q 0).val = (j 0).val := by
  unfold DotDims.lhsIdx
  rw [dif_neg (show ¬(0 : Fin S128x768.rank) ∈ dot_S128x768_S1024x768_S128x1024_1_1_0_0_n_n.lhsBatch by decide), dif_pos (show (0 : Fin S128x768.rank) ∈ dot_S128x768_S1024x768_S128x1024_1_1_0_0_n_n.lhsNonContracting by decide)]
  rfl

/-- The left operand's column is the contraction position. -/
theorem lhs_col (j : S128x1024.Idx) (q : dot_S128x768_S1024x768_S128x1024_1_1_0_0_n_n.contr.Idx) :
    (dot_S128x768_S1024x768_S128x1024_1_1_0_0_n_n.lhsIdx j q 1).val = (q ⟨0, by decide⟩).val :=
  dot_S128x768_S1024x768_S128x1024_1_1_0_0_n_n.lhsIdx_val_of_single rfl j q

/-- The right operand's row is the product's column. -/
theorem rhs_row (j : S128x1024.Idx) (q : dot_S128x768_S1024x768_S128x1024_1_1_0_0_n_n.contr.Idx) :
    (dot_S128x768_S1024x768_S128x1024_1_1_0_0_n_n.rhsIdx j q 0).val = (j 1).val := by
  unfold DotDims.rhsIdx
  rw [dif_neg (show ¬(0 : Fin S1024x768.rank) ∈ dot_S128x768_S1024x768_S128x1024_1_1_0_0_n_n.rhsBatch by decide), dif_pos (show (0 : Fin S1024x768.rank) ∈ dot_S128x768_S1024x768_S128x1024_1_1_0_0_n_n.rhsNonContracting by decide)]
  rfl

/-- The right operand's column is the contraction position. -/
theorem rhs_col (j : S128x1024.Idx) (q : dot_S128x768_S1024x768_S128x1024_1_1_0_0_n_n.contr.Idx) :
    (dot_S128x768_S1024x768_S128x1024_1_1_0_0_n_n.rhsIdx j q 1).val = (q ⟨0, by decide⟩).val :=
  dot_S128x768_S1024x768_S128x1024_1_1_0_0_n_n.rhsIdx_val_of_single rfl j q

/-! ## The product at an index -/

/-- entry (p, k) of the query for the product's entry j = (p, q) -/
abbrev queryEntry (j : S128x1024.Idx) (k : Fin 768) : S128x768.Idx := fun a => match a with
  | ⟨0, _⟩ => ⟨(j 0).val, (j 0).isLt⟩
  | ⟨1, _⟩ => ⟨k.val, k.isLt⟩

/-- entry (q, k) of the rows for the product's entry j = (p, q) -/
abbrev rowEntry (j : S128x1024.Idx) (k : Fin 768) : S1024x768.Idx := fun a => match a with
  | ⟨0, _⟩ => ⟨(j 1).val, (j 1).isLt⟩
  | ⟨1, _⟩ => ⟨k.val, k.isLt⟩

/-- The product of a query block and the transpose of a block of rows, into the zero accumulator, read at an
    index: the sum over the 768 columns of the two entries' products. -/
theorem matmul_zero_apply (x : FVec Ideal S128x768 .bf16) (y : FVec Ideal S1024x768 .bf16) (j : S128x1024.Idx) :
    matmul (F := Ideal) dot_S128x768_S1024x768_S128x1024_1_1_0_0_n_n none x y (constant (F := Ideal) S128x1024 .f32 0x00000000#32) j
      = ∑ k : Fin 768, x (queryEntry j k) * y (rowEntry j k) := by
  simp only [matmul]
  rw [Ideal.matmul_constant_zero_apply, ← Equiv.sum_comp (ValueIdx.contrEquiv1 dot_S128x768_S1024x768_S128x1024_1_1_0_0_n_n 768 rfl rfl).symm]
  refine Finset.sum_congr rfl fun k _ => ?_
  have hk := ValueIdx.contrEquiv1_symm_val dot_S128x768_S1024x768_S128x1024_1_1_0_0_n_n 768 rfl rfl k
  have el : dot_S128x768_S1024x768_S128x1024_1_1_0_0_n_n.lhsIdx j ((ValueIdx.contrEquiv1 dot_S128x768_S1024x768_S128x1024_1_1_0_0_n_n 768 rfl rfl).symm k) = queryEntry j k := funext fun a => Fin.ext (by
    match a with
    | ⟨0, _⟩ => exact lhs_row _ _
    | ⟨1, _⟩ => exact (lhs_col _ _).trans hk)
  have er : dot_S128x768_S1024x768_S128x1024_1_1_0_0_n_n.rhsIdx j ((ValueIdx.contrEquiv1 dot_S128x768_S1024x768_S128x1024_1_1_0_0_n_n 768 rfl rfl).symm k) = rowEntry j k := funext fun a => Fin.ext (by
    match a with
    | ⟨0, _⟩ => exact rhs_row _ _
    | ⟨1, _⟩ => exact (rhs_col _ _).trans hk)
  rw [el, er]

/-- The payload at an index: the cast of the query to its own shape and the narrowing of the rows are the identity
    at the ideal values, so the payload is the product above of the query and the rows themselves. -/
theorem pay_apply (v0 : Vec Ideal S128x768 .bf16) (v6 : Vec Ideal S1024x768 .f32) (j : S128x1024.Idx) :
    k0_pay1 (F := Ideal) v0 v6 j = ∑ k : Fin 768, v0 (queryEntry j k) * v6 (rowEntry j k) := by
  unfold k0_pay1
  rw [shapeCast_self]
  exact matmul_zero_apply v0 (truncf .bf16 v6 bitsLt_bf16_f32) j

end Cert.KernelIdeal.Tile

end
-- ==== Proof.KernelIdealTile.lean ====
/-
  The tile one grid point leaves, as one function. The body's four trips store, into columns 1024 k .. 1024 k +
  1023 of the 128 x 4096 output tile, the product of the query block with the transpose of rows 1024 k .. 1024 k
  + 1023 of the bank's 4096 x 768 tile, each entry a sum over all 768 columns. So every trip's piece is a block of
  ONE function of the tile's index,

      tile x0 x1 (p, r) = sum over k < 768 of x0 (p, k) * x1 (r, k),

  and since the four pieces cover the tile, the tile the run leaves is that function everywhere.
-/
import proofs.«410077_j85126251807521_3_alg».proof.Proof.KernelIdealBody
import proofs.«410077_j85126251807521_3_alg».proof.Proof.KernelIdealPayload
import Idealize.ShloMosaic.PureOps.Ideal.Laws
import Idealize.ShloMosaic.Lib.Pipeline.Value

set_option maxRecDepth 16384

noncomputable section

namespace Cert.KernelIdeal.Around

open Cert.KernelIdeal Cert.KernelIdeal.Gen Cert.KernelIdeal.Tile
open Idealize.ShloMosaic Idealize.ShloMosaic.TcCoe
open Idealize.SL Idealize.SL.Sem

/-! ## One trip's piece -/

/-- What one trip of the loop stores: at column offset 1024 k, the product of the query with the rows read at row
    offset 1024 k. Read off the loop's trip once, here, and cited from then on. -/
theorem trip_piece {F : FTy → Type} [FloatOps F] (𝒱 : Variants) (c : Dev nD) (bd : Option 𝒱.V) (i : grid0.Coords) (arg1 : Memref sig .tc .vmem S128x768 .bf16) (harg1 : arg1.IsWhole) (arg2 : Memref sig .tc .vmem S4096x768 .f32) (harg2 : arg2.IsWhole) (arg3 : Memref sig .tc .vmem S128x4096 .f32) (harg3 : arg3.IsWhole) (v0 : Vec F S128x768 .bf16) (X : BufTy.Contents (Elt F) arg2.view.ty) (k : Fin k0_t1_loop.trips) :
    tripL_k0_t1 (F := F) 𝒱 c bd i arg1 harg1 arg2 harg2 arg3 harg3 v0 X k
      = [⟨Rect.unit (s := S128x4096) (k0_off2 k) S128x1024.size (k0_off2_inb k),
          k0_pay1 v0 (View.readAt (Elt F) arg2.view (Rect.unit (s := S4096x768) (k0_off1 k) S1024x768.size (k0_off1_inb k)).toLoadRect X)⟩] := by
  unfold tripL_k0_t1 trip_k0_t1
  rfl

/-! ## The tile as one function of its index -/

/-- Entry (p, k) of the query, for the tile's entry y = (p, r). -/
abbrev tileQuery (y : S128x4096.Idx) (k : Fin 768) : S128x768.Idx := fun a => match a with
  | ⟨0, _⟩ => ⟨(y 0).val, (y 0).isLt⟩
  | ⟨1, _⟩ => ⟨k.val, k.isLt⟩
/-- Entry (r, k) of the bank's tile, for the tile's entry y = (p, r). -/
abbrev tileRow (y : S128x4096.Idx) (k : Fin 768) : S4096x768.Idx := fun a => match a with
  | ⟨0, _⟩ => ⟨(y 1).val, (y 1).isLt⟩
  | ⟨1, _⟩ => ⟨k.val, k.isLt⟩

/-- The inner product of query row p and row r of the bank's tile. -/
def tileFn (x0 : Vec Ideal S128x768 .bf16) (x1 : Vec Ideal S4096x768 .f32) : S128x4096.Idx → EReal :=
  fun y => ∑ k : Fin 768, x0 (tileQuery y k) * x1 (tileRow y k)

theorem off1_row (k : Fin k0_t1_loop.trips) : (k0_off1 k) 0 = 1024 * k.val := by rw [k0_off1_eq]; rfl
theorem off1_col (k : Fin k0_t1_loop.trips) : (k0_off1 k) 1 = 0 := by rw [k0_off1_eq]; rfl
theorem off2_row (k : Fin k0_t1_loop.trips) : (k0_off2 k) 0 = 0 := by rw [k0_off2_eq]; rfl
theorem off2_col (k : Fin k0_t1_loop.trips) : (k0_off2 k) 1 = 1024 * k.val := by rw [k0_off2_eq]; rfl

/-- Trip k's payload at its local index x = (p, q) is the tile's function at (p, 1024 k + q), the index its
    rectangle places x at: the rows it loaded are rows 1024 k + q of the bank's tile. -/
theorem piece_is_block (arg2 : Memref sig .tc .vmem S4096x768 .f32) (harg2 : arg2.IsWhole)
    (x0 : Vec Ideal S128x768 .bf16) (x1 : Vec Ideal S4096x768 .f32) (k : Fin k0_t1_loop.trips) (x : S128x1024.Idx) :
    k0_pay1 (F := Ideal) x0 (View.readAt (Elt Ideal) arg2.view (Rect.unit (s := S4096x768) (k0_off1 k) S1024x768.size (k0_off1_inb k)).toLoadRect (harg2.unread x1)) x
      = tileFn x0 x1 ((Rect.unit (s := S128x4096) (k0_off2 k) S128x1024.size (k0_off2_inb k)).emb x) := by
  rw [pay_apply, View.readAt_eq_ld, harg2.read_unread]
  unfold tileFn
  refine Finset.sum_congr rfl fun kk _ => ?_
  have o10 := off1_row k; have o11 := off1_col k; have o20 := off2_row k; have o21 := off2_col k
  have e1 : queryEntry x kk = tileQuery ((Rect.unit (s := S128x4096) (k0_off2 k) S128x1024.size (k0_off2_inb k)).emb x) kk :=
    funext fun a => Fin.ext (by
      match a with
      | ⟨0, _⟩ => show (x 0).val = (k0_off2 k) 0 + 1 * (x 0).val; omega
      | ⟨1, _⟩ => rfl)
  have e2 : (Rect.unit (s := S4096x768) (k0_off1 k) S1024x768.size (k0_off1_inb k)).toLoadRect.idx (rowEntry x kk)
      = tileRow ((Rect.unit (s := S128x4096) (k0_off2 k) S128x1024.size (k0_off2_inb k)).emb x) kk :=
    funext fun a => Fin.ext (by
      match a with
      | ⟨0, _⟩ => show (k0_off1 k) 0 + 1 * (x 1).val = (k0_off2 k) 1 + 1 * (x 1).val; omega
      | ⟨1, _⟩ => show (k0_off1 k) 1 + 1 * kk.val = kk.val; omega)
  show x0 (queryEntry x kk) * x1 ((Rect.unit (s := S4096x768) (k0_off1 k) S1024x768.size (k0_off1_inb k)).toLoadRect.idx (rowEntry x kk)) = _
  rw [e1, e2]

/-- Every piece of the first n trips is a block of the tile's function. -/
theorem pieces_are_blocks (c : Dev nD) (i : grid0.Coords) (arg1 : Memref sig .tc .vmem S128x768 .bf16) (harg1 : arg1.IsWhole) (arg2 : Memref sig .tc .vmem S4096x768 .f32) (harg2 : arg2.IsWhole) (arg3 : Memref sig .tc .vmem S128x4096 .f32) (harg3 : arg3.IsWhole)
    (x0 : Vec Ideal S128x768 .bf16) (x1 : Vec Ideal S4096x768 .f32) :
    ∀ n, n ≤ k0_t1_loop.trips → ∀ p ∈ pb_k0_t1 (F := Ideal) Variants.none c none i arg1 harg1 arg2 harg2 arg3 harg3 x0 (harg2.unread x1) n,
      ∀ x : p.1.shape.Idx, p.2 x = tileFn x0 x1 (p.1.emb x)
  | 0, _, p, hp, _ => by rw [pb_k0_t1.eq_1] at hp; exact absurd hp (List.not_mem_nil)
  | n + 1, hn, p, hp, x => by
    have hlt : n < k0_t1_loop.trips := hn
    rw [show pb_k0_t1 (F := Ideal) Variants.none c none i arg1 harg1 arg2 harg2 arg3 harg3 x0 (harg2.unread x1) (n + 1)
        = tripL_k0_t1 (F := Ideal) Variants.none c none i arg1 harg1 arg2 harg2 arg3 harg3 x0 (harg2.unread x1) ⟨n, hlt⟩
          ++ pb_k0_t1 (F := Ideal) Variants.none c none i arg1 harg1 arg2 harg2 arg3 harg3 x0 (harg2.unread x1) n
        from pb_k0_t1_succ (F := Ideal) Variants.none c none i arg1 harg1 arg2 harg2 arg3 harg3 x0 (harg2.unread x1) ⟨n, hlt⟩,
      trip_piece, List.mem_append, List.mem_singleton] at hp
    rcases hp with hp | hp
    · subst hp; exact piece_is_block arg2 harg2 x0 x1 ⟨n, hlt⟩ x
    · exact pieces_are_blocks c i arg1 harg1 arg2 harg2 arg3 harg3 x0 x1 n (Nat.le_of_succ_le hn) p hp x

/-- The query block read back whole is the query block. -/
theorem query_read (arg1 : Memref sig .tc .vmem S128x768 .bf16) (harg1 : arg1.IsWhole) (x0 : Vec Ideal S128x768 .bf16) :
    View.readAt (Elt Ideal) arg1.view (Rect.unit (s := S128x768) ![0, 0] S128x768.size inb_S128x768_S128x768_0_0).toLoadRect (harg1.unread x0) = x0 := by
  rw [View.readAt_eq_ld, harg1.read_unread]
  exact View.ld_unit_zero (S := S128x768) (funext fun a => by fin_cases a <;> rfl) _ x0

/-- THE TILE: what the body's run leaves at tile index y is the inner product of query row y 0 and row y 1 of
    the bank's tile. -/
theorem gemmTile_apply (c : Dev nD) (i : grid0.Coords) (arg1 : Memref sig .tc .vmem S128x768 .bf16) (harg1 : arg1.IsWhole) (arg2 : Memref sig .tc .vmem S4096x768 .f32) (harg2 : arg2.IsWhole) (arg3 : Memref sig .tc .vmem S128x4096 .f32) (harg3 : arg3.IsWhole)
    (x0 : Vec Ideal S128x768 .bf16) (x1 : Vec Ideal S4096x768 .f32) (y : S128x4096.Idx) :
    gemmTile (F := Ideal) c i arg1 harg1 arg2 harg2 arg3 harg3 x0 x1 y = tileFn x0 x1 y := by
  unfold gemmTile
  refine View.canon_apply_of_pieces (tileFn x0 x1) _ ?_ y (gemm_cover c i arg1 harg1 arg2 harg2 arg3 harg3 x0 x1 y)
  show ∀ p ∈ pb_k0_t1 (F := Ideal) Variants.none c none i arg1 harg1 arg2 harg2 arg3 harg3
      (View.readAt (Elt Ideal) arg1.view (Rect.unit (s := S128x768) ![0, 0] S128x768.size inb_S128x768_S128x768_0_0).toLoadRect (harg1.unread x0))
      (harg2.unread x1) (Scf.trips k0_t1_loop.lb k0_t1_loop.ub k0_t1_loop.st), _
  rw [query_read]
  exact pieces_are_blocks c i arg1 harg1 arg2 harg2 arg3 harg3 x0 x1 _ (Nat.le_refl _)

end Cert.KernelIdeal.Around

end
-- ==== Proof.GemmSpec.lean ====
/-
  The specification of the second result. For a query x of 128 rows and a bank f of 65536 rows, each of 768
  columns, the score of query row b against bank row n is the inner product of the two rows,

      scores x f (b, n) = sum over k < 768 of x (b, k) * f (n, k),

  a finite sum on the extended reals (addition there is commutative and associative, so the sum needs no
  finiteness of the entries). The reference computes it as one matrix product against the transposed bank; the
  kernel computes it tile by tile, 4096 bank rows to a grid point and 1024 to a trip of its loop, each tile the
  same inner products over all 768 columns.
-/
import Idealize.ShloMosaic.PureOps.Ideal
import Idealize.ShloMosaic.Lib.ValueIdx

noncomputable section

namespace Cert.Spec

open Idealize.ShloMosaic

abbrev Query : Shape := ⟨2, ![128, 768]⟩
abbrev Bank : Shape := ⟨2, ![65536, 768]⟩
abbrev Scores : Shape := ⟨2, ![128, 65536]⟩

/-- Entry (b, k) of the query, for the score at (b, n). -/
abbrev queryAt (i : Scores.Idx) (k : Fin 768) : Query.Idx := fun a => match a with
  | ⟨0, _⟩ => ⟨(i 0).val, (i 0).isLt⟩
  | ⟨1, _⟩ => ⟨k.val, k.isLt⟩
/-- Entry (n, k) of the bank, for the score at (b, n). -/
abbrev bankAt (i : Scores.Idx) (k : Fin 768) : Bank.Idx := fun a => match a with
  | ⟨0, _⟩ => ⟨(i 1).val, (i 1).isLt⟩
  | ⟨1, _⟩ => ⟨k.val, k.isLt⟩

/-- The inner product of query row b and bank row n, at every (b, n). -/
def scores (x : Query.Idx → EReal) (f : Bank.Idx → EReal) : Scores.Idx → EReal :=
  fun i => ∑ k : Fin 768, x (queryAt i k) * f (bankAt i k)

end Cert.Spec

end
-- ==== Proof.KernelIdealScores.lean ====
/-
  The product array is the specification. At grid point t the pipeline writes the tile the body left back to
  columns 4096 t .. 4096 t + 4095 of the product; the tile's entry (p, r) is the inner product of query row p
  with row r of the bank's tile at that point, which is bank row 4096 t + r; so what point t writes back is the
  block at t of ONE array, the inner products of every query row with every bank row. The sixteen blocks cover
  all 65536 columns, so after the run the product array is that array.
-/
import proofs.«410077_j85126251807521_3_alg».proof.Proof.KernelIdealFrame
import proofs.«410077_j85126251807521_3_alg».proof.Proof.KernelIdealTile
import proofs.«410077_j85126251807521_3_alg».proof.Proof.GemmSpec
import Idealize.ShloMosaic.Lib.Pipeline.Value

set_option maxRecDepth 16384
set_option maxHeartbeats 4000000

noncomputable section

namespace Cert.KernelIdeal.Around

open Cert.KernelIdeal Cert.KernelIdeal.Gen
open Idealize.ShloMosaic Idealize.ShloMosaic.TcCoe
open Idealize.SL Idealize.SL.Sem
open Idealize.ShloMosaic.Pipeline (Dat)

variable (m : (ℓ : Loc nD τ sig) → Buf (Elt Ideal) ℓ)

/-! ## The index maps over the grid -/

/-- The query's block index is (0, 0) at every point, the bank's is (t, 0), the product's (0, t). -/
theorem grid_facts : ∀ t : Fin cfg0.N,
    win0_0.index t (0 : Fin 2) = 0 ∧ win0_0.index t (1 : Fin 2) = 0
    ∧ win0_1.index t (0 : Fin 2) = win0_2.index t (1 : Fin 2) ∧ win0_1.index t (1 : Fin 2) = 0
    ∧ win0_2.index t (0 : Fin 2) = 0 ∧ win0_2.index t (1 : Fin 2) ≤ 15 :=
  (by decide +kernel : ∀ t : Fin grid0.N, _)

/-- Every block column of the product is some point's. -/
theorem grid_onto : ∀ q : Fin 16, ∃ t : Fin cfg0.N, win0_2.index t = ![0, q.val] :=
  (by decide +kernel : ∀ q : Fin 16, ∃ t : Fin grid0.N, win0_2.index t = ![0, q.val])

/-! ## What a point writes back -/

/-- The inner products of the rows of the query and of the bank as the region finds them. -/
abbrev product (c : Dev nD) : S128x65536.Idx → EReal :=
  Cert.Spec.scores (V m c main_call0_v5) (V m c main_arg2)

/-- The query's block, read at an index, is the query array at the index its block places it at. -/
theorem query_block (c : Dev nD) (t : Fin cfg0.N) (x : S128x768.Idx) :
    iblk m c 0 t x = V m c main_call0_v5 (((cfg0.win 0).blk t).view.emb x) := rfl
/-- The same for the bank's tile. -/
theorem bank_block (c : Dev nD) (t : Fin cfg0.N) (x : S4096x768.Idx) :
    iblk m c 1 t x = V m c main_arg2 (((cfg0.win 1).blk t).view.emb x) := rfl

/-- WHAT POINT t WRITES BACK is block t of the product. -/
theorem flushed_eq (c : Dev nD) (t : Fin cfg0.N) :
    (dats m 0 c).flushed 2 t = ((cfg0.win 2).blk t).view.read (Elt Ideal) (product m c) := by
  show (cfg0.win 2).cut (grid0.coords t) ((dats m 0 c).after 2 t) = _
  rw [after_tile]
  unfold tileAt
  obtain ⟨a0, a1, b0, b1, o0, o1⟩ := grid_facts t
  funext j
  show gemmTile (F := Ideal) c (grid0.coords t) (qbuf t) (qbuf_whole t) (bbuf t) (bbuf_whole t) (obuf t) (obuf_whole t) (iblk m c 0 t) (iblk m c 1 t) j
      = Cert.Spec.scores (V m c main_call0_v5) (V m c main_arg2) (((cfg0.win 2).blk t).view.emb j)
  rw [gemmTile_apply]
  unfold tileFn Cert.Spec.scores
  refine Finset.sum_congr rfl fun k _ => ?_
  have hq : ((cfg0.win 0).blk t).view.emb (tileQuery j k) = Cert.Spec.queryAt (((cfg0.win 2).blk t).view.emb j) k := by
    funext a; apply Fin.ext
    match a with
    | ⟨0, _⟩ => show win0_0.index t (0 : Fin 2) * 128 + 1 * (j 0).val = win0_2.index t (0 : Fin 2) * 128 + 1 * (j 0).val; omega
    | ⟨1, _⟩ => show win0_0.index t (1 : Fin 2) * 768 + 1 * k.val = k.val; omega
  have hb : ((cfg0.win 1).blk t).view.emb (tileRow j k) = Cert.Spec.bankAt (((cfg0.win 2).blk t).view.emb j) k := by
    funext a; apply Fin.ext
    match a with
    | ⟨0, _⟩ => show win0_1.index t (0 : Fin 2) * 4096 + 1 * (j 1).val = win0_2.index t (1 : Fin 2) * 4096 + 1 * (j 1).val; omega
    | ⟨1, _⟩ => show win0_1.index t (1 : Fin 2) * 768 + 1 * k.val = k.val; omega
  rw [query_block, bank_block, hq, hb]

/-! ## The sixteen blocks cover the array -/

theorem mem_blk (t : Fin cfg0.N) (i : S128x65536.Idx) :
    i ∈ ((cfg0.win 2).blk t).view.set ↔ ∀ a : Fin 2, win0_2.index t a * S128x4096.size a ≤ (i a).val ∧ (i a).val < win0_2.index t a * S128x4096.size a + S128x4096.size a := by
  show i ∈ ((View.whole main_v0_1).slice (win0_2.rect t)).set ↔ _
  rw [View.set_slice_whole, Rect.mem_set_unit]
  exact Iff.rfl

/-- Column n of the product lies in the block of point n / 4096. -/
theorem covered (i : S128x65536.Idx) :
    ∃ t : Fin cfg0.N, (cfg0.win 2).flush t = true ∧ i ∈ ((cfg0.win 2).blk t).view.set := by
  have hi0 : (i 0).val < 128 := (i 0).isLt
  have hi1 : (i 1).val < 65536 := (i 1).isLt
  obtain ⟨t, ht⟩ := grid_onto ⟨(i 1).val / 4096, by omega⟩
  have q0 : win0_2.index t (0 : Fin 2) = 0 := congrFun ht 0
  have q1 : win0_2.index t (1 : Fin 2) = (i 1).val / 4096 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 4096 ≤ (i 1).val ∧ (i 1).val < win0_2.index t (1 : Fin 2) * 4096 + 4096; omega

/-- THE PRODUCT ARRAY after the run is the inner products of the rows of the query and the bank. -/
theorem product_final (c : Dev nD) : (dats m 0 c).arrAt 2 cfg0.N = product m c :=
  (dats m 0 c).arrAt_eq_of_cover 2 (product m c) (fun t _ => flushed_eq m c t) (covered)

end Cert.KernelIdeal.Around

end
-- ==== Proof.KernelIdealLoss.lean ====
/-
  The host lines of `KernelIdeal`'s @main against the reference's stages. Before the region @main divides each row
  of its first argument by the larger of the row's Euclidean norm and 1e-12 and narrows the quotient to bf16; after
  the region it computes, from that quotient (at f32), the targets and the bank alone, the scalar loss: the gather
  of the bank's rows at the targets, the 128 x 128 similarity matrix, the two masked softmaxes, the hinge, the two
  means and their weighted sum. The reference applies the same operations, in the same order and with the same
  constants, to the same three arguments. Here: the bf16 array the region stages is the narrowing of the
  reference's normalised query, and the scalar the second stretch leaves is the reference's loss of the three
  arguments, whatever the region wrote, provided the bank's array ends as it was launched.
-/
import proofs.«410077_j85126251807521_3_alg».proof.Proof.KernelIdealHost
import proofs.«410077_j85126251807521_3_alg».proof.Proof.ReferenceRead

noncomputable section

namespace Cert.KernelIdeal.Around

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## Before the region -/

set_option maxRecDepth 16384 in
/-- The bf16 query the region stages is the narrowing of the reference's normalised query: the eleven operations
    before the region are the reference's first ten stages, then the narrowing. -/
theorem query_eq (c : Dev nD) :
    V m c main_call0_v5 = truncf .bf16 (Cert.ReferenceIdeal.ReadP.val_main_v4 (F := F) (m ((c : Thread nD τ).loc main_arg0))) bitsLt_bf16_f32 := by
  dsimp only [V, V0]
  simp only [hostOps0, List.flatten_cons, List.flatten_nil, List.append_nil]
  after_results
  rfl

/-! ## What the second stretch reads

It reads three buffers of the contents the region leaves: the f32 quotient, which no window stages and which is
therefore still what the first stretch computed; the targets, which no window stages and no operation writes; and
the bank, which is window 1's array. -/

/-- The f32 quotient at the region's exit is the reference's normalised query of the first argument. -/
theorem tail_query (dats : (p : Fin 1) → (c : Dev nD) → Dat τ (Elt F) Unit ℕ (UR sig nD τ) ℕ (cfgs p) c) (c : Dev nD) :
    Pipeline.withArrays (cfgs 0).spec c (V0 m c) (fun w => (dats 0 c).arrAt w (cfgs 0).N) (Proc.devRef .tc main_call0_v4)
      = Cert.ReferenceIdeal.ReadP.val_main_v4 (F := F) (m ((c : Thread nD τ).loc main_arg0)) := by
  rw [Pipeline.withArrays_of_ne _ c (V0 m c) _ main_call0_v4 (by exact (by decide : ∀ w, Pipeline.arrRef spec0 w ≠ main_call0_v4))]
  dsimp only [V0]
  simp only [hostOps0, List.flatten_cons, List.flatten_nil, List.append_nil]
  after_results
  rfl

/-- The targets at the region's exit are the launched ones. -/
theorem tail_arg1 (dats : (p : Fin 1) → (c : Dev nD) → Dat τ (Elt F) Unit ℕ (UR sig nD τ) ℕ (cfgs p) c) (c : Dev nD) :
    Pipeline.withArrays (cfgs 0).spec c (V0 m c) (fun w => (dats 0 c).arrAt w (cfgs 0).N) (Proc.devRef .tc main_arg1)
      = m ((c : Thread nD τ).loc main_arg1) := by
  rw [Pipeline.withArrays_of_ne _ c (V0 m c) _ main_arg1 (by exact (by decide : ∀ w, Pipeline.arrRef spec0 w ≠ main_arg1))]
  exact V_main_arg1 m c

/-- The bank at the region's exit is window 1's array there: the launched bank, when that array ends as launched. -/
theorem tail_arg2 (dats : (p : Fin 1) → (c : Dev nD) → Dat τ (Elt F) Unit ℕ (UR sig nD τ) ℕ (cfgs p) c) (c : Dev nD)
    (hbank : (dats 0 c).arrAt 1 cfg0.N = m ((c : Thread nD τ).loc main_arg2)) :
    Pipeline.withArrays (cfgs 0).spec c (V0 m c) (fun w => (dats 0 c).arrAt w (cfgs 0).N) (Proc.devRef .tc main_arg2)
      = m ((c : Thread nD τ).loc main_arg2) :=
  (Pipeline.withArrays_arr spec0 launch0.win.arr_inj c (V0 m c) (fun w => (dats 0 c).arrAt w (cfgs 0).N) 1).trans hbank

/-! ## After the region -/

set_option maxRecDepth 65536 in
set_option maxHeartbeats 40000000 in
/-- The scalar the later host lines leave is the reference's loss of the three arguments, for any proof data whose
    bank array (window 1) ends as launched: the ninety-nine operations, read from the region's exit contents at the
    three buffers above, are the reference's stages from the targets' wrap-around to the weighted sum, over the
    same normalised query. The region's own output is not read. -/
theorem loss_eq (dats : (p : Fin 1) → (c : Dev nD) → Dat τ (Elt F) Unit ℕ (UR sig nD τ) ℕ (cfgs p) c) (c : Dev nD)
    (hbank : (dats 0 c).arrAt 1 cfg0.N = m ((c : Thread nD τ).loc main_arg2)) :
    Pipeline.afterTail₀ cfgs dats 0 (V0 m) [hostOps1] c main_v0_0
      = Cert.ReferenceIdeal.ReadP.val_main_v71 (F := F) (m ((c : Thread nD τ).loc main_arg0)) (m ((c : Thread nD τ).loc main_arg1)) (m ((c : Thread nD τ).loc main_arg2)) := by
  unfold Pipeline.afterTail₀
  have h4 := tail_query m dats c
  have h1 := tail_arg1 m dats c
  have h2 := tail_arg2 m dats c hbank
  -- the region's exit contents enter only through these three reads: name them once
  generalize Pipeline.withArrays (cfgs 0).spec c (V0 m c) (fun w => (dats 0 c).arrAt w (cfgs 0).N) = W at h4 h1 h2 ⊢
  show StableHlo.after hostOps1 W (Proc.devRef .tc main_v0_0) = _
  after_results_simp
  rw [h4, h1, h2]
  rfl

end Cert.KernelIdeal.Around

end
-- ==== Proof.KernelIdealResults.lean ====
/-
  The idealized kernel's run with its two results stated in the reference's terms. The scalar: the later host
  lines read only the normalised query, the targets and the bank, and apply to them the operations the reference
  applies, so the scalar is the reference's loss of the three arguments. The product: the inner products of the
  rows of the bf16 query with the rows of the bank; at the ideal instance the narrowing to bf16 is the identity,
  so the bf16 query is the normalised query, and the bank is as launched.
-/
import proofs.«410077_j85126251807521_3_alg».proof.Proof.KernelIdealScores
import proofs.«410077_j85126251807521_3_alg».proof.Proof.KernelIdealLoss

set_option maxRecDepth 16384
set_option maxHeartbeats 4000000

noncomputable section

namespace Cert.KernelIdeal.Around

open Cert.KernelIdeal Cert.KernelIdeal.Gen
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)

/-- The bank's array ends as launched: its window is an input, never written back. -/
theorem bank_final (c : Dev nD) : (dats m 0 c).arrAt 1 cfg0.N = m ((c : Thread nD τ).loc main_arg2) :=
  ((dats m 0 c).arrAt_in 1 rfl _).trans ((A_eq m c 1).trans (V_main_arg2 m c))

/-- The product in the arguments: the bf16 query is the normalised first argument, the bank the third. -/
theorem product_args (c : Dev nD) :
    product m c = Cert.Spec.scores (Cert.ReferenceIdeal.ReadP.val_main_v4 (F := Ideal) (m ((c : Thread nD τ).loc main_arg0))) (m ((c : Thread nD τ).loc main_arg2)) := by
  unfold product
  rw [query_eq, V_main_arg2]
  rfl

/-- Every weakly fair execution of the idealized kernel's @main ends with the scalar at the reference's loss of the
    arguments, the product at the inner products of the normalised query's rows with the bank's, and the
    arguments unchanged. -/
theorem run_results : θ_run defs (onTc (τ := τ) (main (F := Ideal))) ⟨m, fun _ => 0, ρ⟩ (fun r => ∀ c : Dev nD,
      r.2.mem ((c.tc : Thread nD τ).loc main_v0_0)
        = Cert.ReferenceIdeal.ReadP.val_main_v71 (F := Ideal) (m ((c : Thread nD τ).loc main_arg0)) (m ((c : Thread nD τ).loc main_arg1)) (m ((c : Thread nD τ).loc main_arg2))
      ∧ r.2.mem ((c.tc : Thread nD τ).loc main_v0_1)
        = Cert.Spec.scores (Cert.ReferenceIdeal.ReadP.val_main_v4 (F := Ideal) (m ((c : Thread nD τ).loc main_arg0))) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (loss_eq m (dats m) c (bank_final m c)),
      (h c).2.1.trans ((product_final m c).trans (product_args m c)),
      (h c).2.2⟩)
    (run_named m ρ)

end Cert.KernelIdeal.Around

end
-- ==== Proof.ReferenceValue.lean ====
/-
  The reference's second result is the specification. The reference transposes the bank and takes one matrix
  product of the normalised query with it, contracting the query's columns against the transposed bank's rows:
  entry (b, n) is the sum over k of query (b, k) times transposed bank (k, n), and the transpose read at (k, n)
  is the bank at (n, k): the inner product of query row b and bank row n.
-/
import proofs.«410077_j85126251807521_3_alg».proof.Proof.ReferenceRead
import proofs.«410077_j85126251807521_3_alg».proof.Proof.GemmSpec

noncomputable section

namespace Cert.ReferenceIdeal.Scores

open Cert.ReferenceIdeal Cert.ReferenceIdeal.ReadP Idealize.ShloMosaic

/-- The matrix product against the transposed bank, index by index, is the inner products of rows. -/
theorem product_eq (x0 : (⟨S128x768, .f32⟩ : BufTy).Contents (Elt Ideal)) (x2 : (⟨S65536x768, .f32⟩ : BufTy).Contents (Elt Ideal)) :
    val_main_v6 (F := Ideal) x0 x2 = Cert.Spec.scores (val_main_v4 (F := Ideal) x0) x2 := by
  funext i
  rw [val_main_v6_apply]
  unfold Cert.Spec.scores
  refine Finset.sum_congr rfl fun k _ => ?_
  rw [val_main_v5_apply]
  have e1 : lidx_main_v6 i k = Cert.Spec.queryAt i k :=
    funext fun a => Fin.ext (by match a with | ⟨0, _⟩ => rfl | ⟨1, _⟩ => rfl)
  have e2 : idx_main_v5 (ridx_main_v6 i k) = Cert.Spec.bankAt i k :=
    funext fun a => Fin.ext (by match a with | ⟨0, _⟩ => rfl | ⟨1, _⟩ => rfl)
  rw [e1, e2]

end Cert.ReferenceIdeal.Scores

end
-- ==== Proof.lean ====
/-
  The claim: the Pallas memory-bank product with its host-side loss against the jnp reference, over the extended
  reals. Both programs normalise the rows of the first argument (x / max(|x|, 1e-12)), gather the bank's rows at
  the targets, form the 128 x 128 similarity matrix of the normalised rows with the gathered rows, and from it
  the soft-weighted triplet loss plus 0.08 times the mean cosine distance, by the same host operations in the same
  order with the same constants; and both return the 128 x 65536 matrix of inner products of the normalised rows
  with all bank rows. They differ only in how that matrix is made: the reference by one matrix product against
  the transposed bank; the kernel by narrowing the normalised rows to bf16 (the identity on the extended reals)
  and a Pallas call that walks the bank in sixteen tiles of 4096 rows, each in four chunks of 1024, every entry
  still the inner product over all 768 columns. Equal entry by entry: a sum over the same 768 terms.
  The three frames: the reference's is its run with the results dropped; each kernel program's is the run of its
  one region (sixteen grid points, a loop of four trips in the body) between the eleven host operations before
  it and the ninety-nine after it, none of which writes an argument. The kernel's idealization rewrote nothing.
-/
import proofs.«410077_j85126251807521_3_alg».proof.Defs
import proofs.«410077_j85126251807521_3_alg».proof.Proof.Gen.Kernel
import proofs.«410077_j85126251807521_3_alg».proof.Proof.Gen.KernelIdeal
import proofs.«410077_j85126251807521_3_alg».proof.Proof.Gen.ReferenceIdeal
import proofs.«410077_j85126251807521_3_alg».proof.Proof.Gen.Pre_finite_inputs
import proofs.«410077_j85126251807521_3_alg».proof.Proof.KernelFrame
import proofs.«410077_j85126251807521_3_alg».proof.Proof.KernelIdealResults
import proofs.«410077_j85126251807521_3_alg».proof.Proof.ReferenceValue

noncomputable section

namespace Cert.Proof

open Idealize.ShloMosaic Idealize.SL.Sem

theorem frame_kernel : Cert.frame_Kernel := fun m ρ _ => Cert.Kernel.Around.frame m ρ

theorem frame_kernel_ideal : Cert.frame_KernelIdeal := fun m ρ _ => Cert.KernelIdeal.Around.frame m ρ

/-- The reference is host operations only: its frame is its run with the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- From memories agreeing on the three arguments both programs end with the same scalar (the same host
    operations of the same arguments) and the same product (the inner products of the normalised rows with the
    bank's rows), the arguments unchanged. -/
theorem algebraic : Cert.algebraic_KernelIdeal_ReferenceIdeal := by
  intro m ρ m' ρ' _ hagree
  refine ⟨_, _, Cert.KernelIdeal.Around.run_results m ρ, ?_⟩
  refine (θ_run Cert.ReferenceIdeal.defs _ _).mono (fun _ h c => ⟨?_, ?_, (h c).2.2⟩)
    (Cert.ReferenceIdeal.ValueP.run (F := Ideal) m' ρ')
  · rw [(h c).1, Cert.ReferenceIdeal.ReadP.val_main_v71_eq, (hagree c).1, (hagree c).2.1, (hagree c).2.2]
  · rw [(h c).2.1, Cert.ReferenceIdeal.ReadP.val_main_v6_eq, Cert.ReferenceIdeal.Scores.product_eq, (hagree c).1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
